-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1x50 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x256 : Shape := ⟨2, ![160000, 256]⟩
abbrev S256x500 : Shape := ⟨2, ![256, 500]⟩
abbrev S500x50 : Shape := ⟨2, ![500, 50]⟩
abbrev S50x1 : Shape := ⟨2, ![50, 1]⟩
abbrev S_ : Shape := ⟨0, ![]⟩

class Facts : Prop where
  bcast_S_S160000x256 : S_.BroadcastsInDim S160000x256 (![] : Fin 0 → Fin S160000x256.rank)
  reducesTo_S160000x256_S_d0_1 : S160000x256.ReducesTo [0, 1] S_
  h_S_ : 0 < S_.numel
  bcast_S_S256x500 : S_.BroadcastsInDim S256x500 (![] : Fin 0 → Fin S256x500.rank)
  reducesTo_S256x500_S_d0_1 : S256x500.ReducesTo [0, 1] S_
  bcast_S_S500x50 : S_.BroadcastsInDim S500x50 (![] : Fin 0 → Fin S500x50.rank)
  reducesTo_S500x50_S_d0_1 : S500x50.ReducesTo [0, 1] S_
  bcast_S_S50x1 : S_.BroadcastsInDim S50x1 (![] : Fin 0 → Fin S50x1.rank)
  reducesTo_S50x1_S_d0_1 : S50x1.ReducesTo [0, 1] S_

variable [Facts]

def fn_part1 {F : FTy → Type} [FloatOps F] (main_v13 : IVec S_ 1) (main_v16 : IVec S50x1 1) : IVec S_ 1 :=
  let main_c_5 : IVec S_ 1 := constantI S_ 1 1#1
  let main_v17 : IVec S_ 1 := (fun x v => Host.reduce IntOp.andi x v reducesTo_S50x1_S_d0_1 h_S_) main_v16 main_c_5
  let main_v18 : IVec S_ 1 := andi main_v13 main_v17
  main_v18

def fn {F : FTy → Type} [FloatOps F] (main_arg0 : FVec F S160000x256 .f32) (main_arg1 : FVec F S256x500 .f32) (main_arg2 : FVec F S500x50 .f32) (main_arg3 : FVec F S50x1 .f32) : IVec S_ 1 :=
  let main_v0 : FVec F S160000x256 .f32 := Host.absf main_arg0
  let main_cst : FVec F S_ .f32 := constant S_ .f32 0x7F800000#32
  let main_v1 : FVec F S160000x256 .f32 := broadcastInDim S160000x256 ![] bcast_S_S160000x256 main_cst
  let main_v2 : IVec S160000x256 1 := cmpf .olt main_v0 main_v1
  let main_c : IVec S_ 1 := constantI S_ 1 1#1
  let main_v3 : IVec S_ 1 := (fun x v => Host.reduce IntOp.andi x v reducesTo_S160000x256_S_d0_1 h_S_) main_v2 main_c
  let main_v4 : FVec F S256x500 .f32 := Host.absf main_arg1
  let main_cst_0 : FVec F S_ .f32 := constant S_ .f32 0x7F800000#32
  let main_v5 : FVec F S256x500 .f32 := broadcastInDim S256x500 ![] bcast_S_S256x500 main_cst_0
  let main_v6 : IVec S256x500 1 := cmpf .olt main_v4 main_v5
  let main_c_1 : IVec S_ 1 := constantI S_ 1 1#1
  let main_v7 : IVec S_ 1 := (fun x v => Host.reduce IntOp.andi x v reducesTo_S256x500_S_d0_1 h_S_) main_v6 main_c_1
  let main_v8 : IVec S_ 1 := andi main_v3 main_v7
  let main_v9 : FVec F S500x50 .f32 := Host.absf main_arg2
  let main_cst_2 : FVec F S_ .f32 := constant S_ .f32 0x7F800000#32
  let main_v10 : FVec F S500x50 .f32 := broadcastInDim S500x50 ![] bcast_S_S500x50 main_cst_2
  let main_v11 : IVec S500x50 1 := cmpf .olt main_v9 main_v10
  let main_c_3 : IVec S_ 1 := constantI S_ 1 1#1
  let main_v12 : IVec S_ 1 := (fun x v => Host.reduce IntOp.andi x v reducesTo_S500x50_S_d0_1 h_S_) main_v11 main_c_3
  let main_v13 : IVec S_ 1 := andi main_v8 main_v12
  let main_v14 : FVec F S50x1 .f32 := Host.absf main_arg3
  let main_cst_4 : FVec F S_ .f32 := constant S_ .f32 0x7F800000#32
  let main_v15 : FVec F S50x1 .f32 := broadcastInDim S50x1 ![] bcast_S_S50x1 main_cst_4
  let main_v16 : IVec S50x1 1 := cmpf .olt main_v14 main_v15
  fn_part1 (F := F) main_v13 main_v16
-- ==== Kernel.lean ====
abbrev S160000x256 : Shape := ⟨2, ![160000, 256]⟩
abbrev S256x500 : Shape := ⟨2, ![256, 500]⟩
abbrev S500x50 : Shape := ⟨2, ![500, 50]⟩
abbrev S50x1 : Shape := ⟨2, ![50, 1]⟩
abbrev S500x256 : Shape := ⟨2, ![500, 256]⟩
abbrev S50x500 : Shape := ⟨2, ![50, 500]⟩
abbrev S1x50 : Shape := ⟨2, ![1, 50]⟩
abbrev S25x50x128 : Shape := ⟨3, ![25, 50, 128]⟩
abbrev S6400x256 : Shape := ⟨2, ![6400, 256]⟩
abbrev S1x50x128 : Shape := ⟨3, ![1, 50, 128]⟩
abbrev S6400x500 : Shape := ⟨2, ![6400, 500]⟩
abbrev S6400x50 : Shape := ⟨2, ![6400, 50]⟩
abbrev S1x50x128x50 : Shape := ⟨4, ![1, 50, 128, 50]⟩
abbrev S1x1x1x50 : Shape := ⟨4, ![1, 1, 1, 50]⟩
abbrev S160000x1 : Shape := ⟨2, ![160000, 1]⟩

abbrev nBuf : Space → Nat
  | .hbm => 9
  | .vmem => 7
  | .smem => 0
  | _ => 0

abbrev bufTy : (tb : Table) → Fin (tcTables nBuf tb) → BufTy
  | .hbm, ⟨0, _⟩ => ⟨S160000x256, .f32⟩
  | .hbm, ⟨1, _⟩ => ⟨S256x500, .f32⟩
  | .hbm, ⟨2, _⟩ => ⟨S500x50, .f32⟩
  | .hbm, ⟨3, _⟩ => ⟨S50x1, .f32⟩
  | .hbm, ⟨4, _⟩ => ⟨S500x256, .f32⟩
  | .hbm, ⟨5, _⟩ => ⟨S50x500, .f32⟩
  | .hbm, ⟨6, _⟩ => ⟨S1x50, .f32⟩
  | .hbm, ⟨7, _⟩ => ⟨S25x50x128, .f32⟩
  | .hbm, ⟨8, _⟩ => ⟨S160000x1, .f32⟩
  | .local _ .vmem, ⟨0, _⟩ => ⟨S6400x256, .f32⟩
  | .local _ .vmem, ⟨1, _⟩ => ⟨S6400x256, .f32⟩
  | .local _ .vmem, ⟨2, _⟩ => ⟨S500x256, .f32⟩
  | .local _ .vmem, ⟨3, _⟩ => ⟨S50x500, .f32⟩
  | .local _ .vmem, ⟨4, _⟩ => ⟨S1x50, .f32⟩
  | .local _ .vmem, ⟨5, _⟩ => ⟨S1x50x128, .f32⟩
  | .local _ .vmem, ⟨6, _⟩ => ⟨S1x50x128, .f32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x50x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x500_S500x256_1_0 : S256x500.Transposes [1, 0] S500x256
  transposes_S500x50_S50x500_1_0 : S500x50.Transposes [1, 0] S50x500
  transposes_S50x1_S1x50_1_0 : S50x1.Transposes [1, 0] S1x50
  inb_S6400x256_S6400x256_0_0 : ∀ a, (![0, 0] : Fin 2 → Nat) a + S6400x256.size a ≤ S6400x256.size a
  h_S6400x256 : 0 < S6400x256.numel
  bitsLt_bf16_f32 : FTy.bits .bf16 < FTy.bits .f32
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S50x500_S50x500_0_0 : ∀ a, (![0, 0] : Fin 2 → Nat) a + S50x500.size a ≤ S50x500.size a
  h_S50x500 : 0 < S50x500.numel
  shapeCasts_S50x500_S50x500 : S50x500.ShapeCasts S50x500
  shapeCasts_S6400x50_S1x50x128x50 : S6400x50.ShapeCasts S1x50x128x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  shapeCasts_S1x50_S1x1x1x50 : S1x50.ShapeCasts S1x1x1x50
  broadcasts_S1x1x1x50_S1x50x128x50 : S1x1x1x50.Broadcasts S1x50x128x50
  reduces_S1x50x128x50_S1x50x128 : S1x50x128x50.Reduces [3] S1x50x128
  inb_S1x50x128_S1x50x128_0_0_0 : ∀ a, (![0, 0, 0] : Fin 3 → Nat) a + S1x50x128.size a ≤ S1x50x128.size a
  h_S1x50x128 : 0 < S1x50x128.numel
  shapeCasts_S25x50x128_S160000x1 : S25x50x128.ShapeCasts S160000x1
  dot_S6400x256_S500x256_S6400x500_1_1_0_0_n_n_wf : DotDims.WF S6400x256 S500x256 S6400x500 [1] [1] [0] [0] [] []
  dot_S6400x500_S50x500_S6400x50_1_1_0_0_n_n_wf : DotDims.WF S6400x500 S50x500 S6400x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S160000x256.size a
  hwx0_0 : ∀ i : grid0.Coords, EltTy.bits .f32 = 32 ∨ (Rect.block (s := S160000x256) S6400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x256.size a ≤ S500x256.size a
  hwx0_1 : ∀ i : grid0.Coords, EltTy.bits .f32 = 32 ∨ (Rect.block (s := S500x256) S500x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x500.size a ≤ S50x500.size a
  hwx0_2 : ∀ i : grid0.Coords, EltTy.bits .f32 = 32 ∨ (Rect.block (s := S50x500) S50x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x50x128.size a ≤ S25x50x128.size a
  hwx0_4 : ∀ i : grid0.Coords, EltTy.bits .f32 = 32 ∨ (Rect.block (s := S25x50x128) S1x50x128.size (cc0_transform_4 i) (hinb0_4 i)).WholeWords (EltTy.packing .f32)

variable [Facts₀]

def dot_S6400x256_S500x256_S6400x500_1_1_0_0_n_n : DotDims S6400x256 S500x256 S6400x500 where
  lhsContracting := [1]
  rhsContracting := [1]
  lhsNonContracting := [0]
  rhsNonContracting := [0]
  lhsBatch := []
  rhsBatch := []
  wf := dot_S6400x256_S500x256_S6400x500_1_1_0_0_n_n_wf
def dot_S6400x500_S50x500_S6400x50_1_1_0_0_n_n : DotDims S6400x500 S50x500 S6400x50 where
  lhsContracting := [1]
  rhsContracting := [1]
  lhsNonContracting := [0]
  rhsNonContracting := [0]
  lhsBatch := []
  rhsBatch := []
  wf := dot_S6400x500_S50x500_S6400x50_1_1_0_0_n_n_wf

abbrev win0_0 : Pipeline.Window sig grid0 :=
  Pipeline.Window.ofSpec (Memref.whole main_arg0) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S500x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S50x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x50x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S160000x256 : Shape := ⟨2, ![160000, 256]⟩
abbrev S256x500 : Shape := ⟨2, ![256, 500]⟩
abbrev S500x50 : Shape := ⟨2, ![500, 50]⟩
abbrev S50x1 : Shape := ⟨2, ![50, 1]⟩
abbrev S160000x500 : Shape := ⟨2, ![160000, 500]⟩
abbrev S_ : Shape := ⟨0, ![]⟩
abbrev S160000x50 : Shape := ⟨2, ![160000, 50]⟩
abbrev S160000x1 : Shape := ⟨2, ![160000, 1]⟩

abbrev nBuf : Space → Nat
  | .hbm => 13
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S256x500, .f32⟩
  | .hbm, ⟨2, _⟩ => ⟨S500x50, .f32⟩
  | .hbm, ⟨3, _⟩ => ⟨S50x1, .f32⟩
  | .hbm, ⟨4, _⟩ => ⟨S160000x500, .f32⟩
  | .hbm, ⟨5, _⟩ => ⟨S_, .f32⟩
  | .hbm, ⟨6, _⟩ => ⟨S160000x500, .f32⟩
  | .hbm, ⟨7, _⟩ => ⟨S160000x500, .f32⟩
  | .hbm, ⟨8, _⟩ => ⟨S160000x50, .f32⟩
  | .hbm, ⟨9, _⟩ => ⟨S_, .f32⟩
  | .hbm, ⟨10, _⟩ => ⟨S160000x50, .f32⟩
  | .hbm, ⟨11, _⟩ => ⟨S160000x50, .f32⟩
  | .hbm, ⟨12, _⟩ => ⟨S160000x1, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S_S160000x500 : S_.BroadcastsInDim S160000x500 (![] : Fin 0 → Fin S160000x500.rank)
  bcast_S_S160000x50 : S_.BroadcastsInDim S160000x50 (![] : Fin 0 → Fin S160000x50.rank)
  dot_S160000x256_S256x500_S160000x500_1_0_0_1_n_n_wf : DotDims.WF S160000x256 S256x500 S160000x500 [1] [0] [0] [1] [] []
  dot_S160000x500_S500x50_S160000x50_1_0_0_1_n_n_wf : DotDims.WF S160000x500 S500x50 S160000x50 [1] [0] [0] [1] [] []
  dot_S160000x50_S50x1_S160000x1_1_0_0_1_n_n_wf : DotDims.WF S160000x50 S50x1 S160000x1 [1] [0] [0] [1] [] []

variable [Facts₀]

def dot_S160000x256_S256x500_S160000x500_1_0_0_1_n_n : DotDims S160000x256 S256x500 S160000x500 where
  lhsContracting := [1]
  rhsContracting := [0]
  lhsNonContracting := [0]
  rhsNonContracting := [1]
  lhsBatch := []
  rhsBatch := []
  wf := dot_S160000x256_S256x500_S160000x500_1_0_0_1_n_n_wf
def dot_S160000x500_S500x50_S160000x50_1_0_0_1_n_n : DotDims S160000x500 S500x50 S160000x50 where
  lhsContracting := [1]
  rhsContracting := [0]
  lhsNonContracting := [0]
  rhsNonContracting := [1]
  lhsBatch := []
  rhsBatch := []
  wf := dot_S160000x500_S500x50_S160000x50_1_0_0_1_n_n_wf
def dot_S160000x50_S50x1_S160000x1_1_0_0_1_n_n : DotDims S160000x50 S50x1 S160000x1 where
  lhsContracting := [1]
  rhsContracting := [0]
  lhsNonContracting := [0]
  rhsNonContracting := [1]
  lhsBatch := []
  rhsBatch := []
  wf := dot_S160000x50_S50x1_S160000x1_1_0_0_1_n_n_wf

class Facts : Prop extends Facts₀ where

variable [Facts]
-- ==== Proof.Mlp.lean ====
/-
  The function both programs compute: a three-layer perceptron without biases, applied to every row of E,
      out r = Σ_c max (Σ_j max (Σ_k E[r,k] · w1[k,j]) 0 · w2[j,c]) 0 · w3[c,0],
  over the extended reals. Each layer is a plain finite sum of products followed, for the two hidden layers, by
  the maximum with zero; nothing is distributed or cancelled, so no finiteness of the entries is needed to
  compare two programs that both compute these sums.
-/
import Idealize.ShloMosaic.PureOps.Ideal
import Idealize.ShloMosaic.Lib.ValueIdx

noncomputable section

namespace Cert.Mlp

open Idealize.ShloMosaic Idealize.ShloMosaic.ValueIdx

/-- The shapes of the four arguments and of the result. -/
abbrev SE : Shape := ⟨2, ![160000, 256]⟩
abbrev SW1 : Shape := ⟨2, ![256, 500]⟩
abbrev SW2 : Shape := ⟨2, ![500, 50]⟩
abbrev SW3 : Shape := ⟨2, ![50, 1]⟩
abbrev SOut : Shape := ⟨2, ![160000, 1]⟩

/-- First hidden layer: unit `j` of row `r` is the rectified inner product of the row with column `j` of `w1`. -/
def hidden1 (E : SE.Idx → EReal) (w1 : SW1.Idx → EReal) (r : Fin 160000) (j : Fin 500) : EReal :=
  max (∑ k : Fin 256, E (ix2 r k) * w1 (ix2 k j)) 0

/-- Second hidden layer: unit `c` of row `r` is the rectified inner product of the first layer's row with column `c` of `w2`. -/
def hidden2 (E : SE.Idx → EReal) (w1 : SW1.Idx → EReal) (w2 : SW2.Idx → EReal) (r : Fin 160000) (c : Fin 50) : EReal :=
  max (∑ j : Fin 500, hidden1 E w1 r j * w2 (ix2 j c)) 0

/-- The output of row `r`: the inner product of the second layer's row with the one column of `w3`. -/
def outRow (E : SE.Idx → EReal) (w1 : SW1.Idx → EReal) (w2 : SW2.Idx → EReal) (w3 : SW3.Idx → EReal) (r : Fin 160000) : EReal :=
  ∑ c : Fin 50, hidden2 E w1 w2 r c * w3 (ix2 c (0 : Fin 1))

/-- The whole result, a column of 160000 outputs. -/
def out (E : SE.Idx → EReal) (w1 : SW1.Idx → EReal) (w2 : SW2.Idx → EReal) (w3 : SW3.Idx → EReal) : SOut.Idx → EReal :=
  fun i => outRow E w1 w2 w3 (i 0)

theorem out_ix2 (E : SE.Idx → EReal) (w1 : SW1.Idx → EReal) (w2 : SW2.Idx → EReal) (w3 : SW3.Idx → EReal) (r : Fin 160000) (u : Fin 1) :
    out E w1 w2 w3 (ix2 r u) = outRow E w1 w2 w3 r := rfl

end Cert.Mlp

end
-- ==== Proof.RefIsMlp.lean ====
/-
  The reference computes the perceptron of `Mlp.lean`: its three `dot_general`s are the three layers' sums, read
  at an index as sums over the contracted axis, and its two `maximum`s against a broadcast zero are the two
  rectifications. Only the index functions of the generated reading have to be identified with the coordinates
  (row, unit) the specification is written over.
-/
import proofs.«174020_g30520037605946_cont_9to1_2283_11_alg».proof.Proof.Gen.ReferenceIdeal.Read
import proofs.«174020_g30520037605946_cont_9to1_2283_11_alg».proof.Proof.Mlp

noncomputable section

namespace Cert.ReferenceIdeal.RefValue

open Cert.ReferenceIdeal Cert.ReferenceIdeal.Read Idealize.ShloMosaic Idealize.ShloMosaic.ValueIdx

/-- The first rectified product at (row r, unit j). -/
theorem hidden1_eq (E : (⟨S160000x256, .f32⟩ : BufTy).Contents (Elt Ideal)) (w1 : (⟨S256x500, .f32⟩ : BufTy).Contents (Elt Ideal))
    (r : Fin 160000) (j : Fin 500) :
    val_main_v1 (F := Ideal) E w1 (ix2 r j) = Cert.Mlp.hidden1 E w1 r j := by
  rw [val_main_v1_apply, val_main_v0_apply, val_main_call0_v0_apply, val_main_call0_cst_apply]
  unfold Cert.Mlp.hidden1
  have el : ∀ k : Fin 256, lidx_main_v0 (ix2 r j) k = ix2 r k := fun k => funext fun a => by
    match a with
    | ⟨0, _⟩ => rfl
    | ⟨1, _⟩ => rfl
  have er : ∀ k : Fin 256, ridx_main_v0 (ix2 r j) k = ix2 k j := fun k => funext fun a => by
    match a with
    | ⟨0, _⟩ => rfl
    | ⟨1, _⟩ => rfl
  simp only [el, er, Ideal.maximumf_def, Ideal.ofBits_def, Ideal.ofBits_zero_f32]

/-- The second rectified product at (row r, unit c). -/
theorem hidden2_eq (E : (⟨S160000x256, .f32⟩ : BufTy).Contents (Elt Ideal)) (w1 : (⟨S256x500, .f32⟩ : BufTy).Contents (Elt Ideal))
    (w2 : (⟨S500x50, .f32⟩ : BufTy).Contents (Elt Ideal)) (r : Fin 160000) (c : Fin 50) :
    val_main_v3 (F := Ideal) E w1 w2 (ix2 r c) = Cert.Mlp.hidden2 E w1 w2 r c := by
  rw [val_main_v3_apply, val_main_v2_apply, val_main_call1_v0_apply, val_main_call1_cst_apply]
  unfold Cert.Mlp.hidden2
  have el : ∀ k : Fin 500, lidx_main_v2 (ix2 r c) k = ix2 r k := fun k => funext fun a => by
    match a with
    | ⟨0, _⟩ => rfl
    | ⟨1, _⟩ => rfl
  have er : ∀ k : Fin 500, ridx_main_v2 (ix2 r c) k = ix2 k c := fun k => funext fun a => by
    match a with
    | ⟨0, _⟩ => rfl
    | ⟨1, _⟩ => rfl
  simp only [el, er, hidden1_eq, Ideal.maximumf_def, Ideal.ofBits_def, Ideal.ofBits_zero_f32]

/-- The reference's result is the perceptron's output column. -/
theorem result_eq (E : (⟨S160000x256, .f32⟩ : BufTy).Contents (Elt Ideal)) (w1 : (⟨S256x500, .f32⟩ : BufTy).Contents (Elt Ideal))
    (w2 : (⟨S500x50, .f32⟩ : BufTy).Contents (Elt Ideal)) (w3 : (⟨S50x1, .f32⟩ : BufTy).Contents (Elt Ideal)) :
    val_main_v4 (F := Ideal) E w1 w2 w3 = Cert.Mlp.out E w1 w2 w3 := by
  funext i
  obtain ⟨r, u, rfl⟩ : ∃ (r : Fin 160000) (u : Fin 1), i = ix2 r u := ⟨i 0, i 1, eq_ix2 i⟩
  rw [val_main_v4_apply, Cert.Mlp.out_ix2]
  unfold Cert.Mlp.outRow
  have el : ∀ k : Fin 50, lidx_main_v4 (ix2 r u) k = ix2 r k := fun k => funext fun a => by
    match a with
    | ⟨0, _⟩ => rfl
    | ⟨1, _⟩ => rfl
  have er : ∀ k : Fin 50, ridx_main_v4 (ix2 r u) k = ix2 k (0 : Fin 1) := fun k => funext fun a => by
    match a with
    | ⟨0, _⟩ => rfl
    | ⟨1, _⟩ => exact Fin.ext (by show u.val = 0; omega)
  simp only [el, er, hidden2_eq]

end Cert.ReferenceIdeal.RefValue

end
-- ==== Proof.BlockValue.lean ====
/-
  One grid point's work, read at an index. The body multiplies its 6400 rows of E by the transposed first weight
  matrix, rectifies, multiplies by the transposed second weight matrix, rectifies, views the 6400 × 50 result as
  50 × 128 rows of 50 lanes, multiplies each row by the third weight vector and sums the lanes. So entry (s, l) of
  the block it stores is the perceptron's output on block row 128·s + l. Changes of float format are the identity
  on the extended reals and the accumulators start at zero, so each product is the bare sum.
-/
import proofs.«174020_g30520037605946_cont_9to1_2283_11_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## The two products -/

theorem lhs_first_0 (i : S6400x500.Idx) (q : dot_S6400x256_S500x256_S6400x500_1_1_0_0_n_n.contr.Idx) :
    (dot_S6400x256_S500x256_S6400x500_1_1_0_0_n_n.lhsIdx i q 0).val = (i 0).val := by
  unfold DotDims.lhsIdx
  rw [dif_neg (show ¬(0 : Fin S6400x256.rank) ∈ dot_S6400x256_S500x256_S6400x500_1_1_0_0_n_n.lhsBatch by decide), dif_pos (show (0 : Fin S6400x256.rank) ∈ dot_S6400x256_S500x256_S6400x500_1_1_0_0_n_n.lhsNonContracting by decide)]
  rfl
theorem lhs_first_1 (i : S6400x500.Idx) (q : dot_S6400x256_S500x256_S6400x500_1_1_0_0_n_n.contr.Idx) :
    (dot_S6400x256_S500x256_S6400x500_1_1_0_0_n_n.lhsIdx i q 1).val = (q ⟨0, by decide⟩).val :=
  dot_S6400x256_S500x256_S6400x500_1_1_0_0_n_n.lhsIdx_val_of_single rfl i q
theorem rhs_first_0 (i : S6400x500.Idx) (q : dot_S6400x256_S500x256_S6400x500_1_1_0_0_n_n.contr.Idx) :
    (dot_S6400x256_S500x256_S6400x500_1_1_0_0_n_n.rhsIdx i q 0).val = (i 1).val := by
  unfold DotDims.rhsIdx
  rw [dif_neg (show ¬(0 : Fin S500x256.rank) ∈ dot_S6400x256_S500x256_S6400x500_1_1_0_0_n_n.rhsBatch by decide), dif_pos (show (0 : Fin S500x256.rank) ∈ dot_S6400x256_S500x256_S6400x500_1_1_0_0_n_n.rhsNonContracting by decide)]
  rfl
theorem rhs_first_1 (i : S6400x500.Idx) (q : dot_S6400x256_S500x256_S6400x500_1_1_0_0_n_n.contr.Idx) :
    (dot_S6400x256_S500x256_S6400x500_1_1_0_0_n_n.rhsIdx i q 1).val = (q ⟨0, by decide⟩).val :=
  dot_S6400x256_S500x256_S6400x500_1_1_0_0_n_n.rhsIdx_val_of_single rfl i q

/-- Entry (p, j) of the product of `a` with the transpose of `b`, accumulated from zero, is the inner product of row `p` of `a`
    with row `j` of `b`: both operands are contracted along their second axis. -/
theorem mm_first_apply (a : FVec Ideal S6400x256 .bf16) (b : FVec Ideal S500x256 .bf16) (p : Fin 6400) (j : Fin 500) :
    matmul dot_S6400x256_S500x256_S6400x500_1_1_0_0_n_n none a b (constant (F := Ideal) S6400x500 .f32 0x00000000#32) (ix2 p j)
      = ∑ k : Fin 256, a (ix2 p k) * b (ix2 j k) := by
  simp only [matmul]
  rw [Ideal.matmul_constant_zero_apply, ← Equiv.sum_comp (contrEquiv1 dot_S6400x256_S500x256_S6400x500_1_1_0_0_n_n 256 rfl rfl).symm]
  refine Finset.sum_congr rfl fun k _ => ?_
  have hk := contrEquiv1_symm_val dot_S6400x256_S500x256_S6400x500_1_1_0_0_n_n 256 rfl rfl k
  have el : dot_S6400x256_S500x256_S6400x500_1_1_0_0_n_n.lhsIdx (ix2 p j) ((contrEquiv1 dot_S6400x256_S500x256_S6400x500_1_1_0_0_n_n 256 rfl rfl).symm k) = ix2 p k := funext fun a => Fin.ext (by
    match a with
    | ⟨0, _⟩ => exact lhs_first_0 _ _
    | ⟨1, _⟩ => exact (lhs_first_1 _ _).trans hk)
  have er : dot_S6400x256_S500x256_S6400x500_1_1_0_0_n_n.rhsIdx (ix2 p j) ((contrEquiv1 dot_S6400x256_S500x256_S6400x500_1_1_0_0_n_n 256 rfl rfl).symm k) = ix2 j k := funext fun a => Fin.ext (by
    match a with
    | ⟨0, _⟩ => exact rhs_first_0 _ _
    | ⟨1, _⟩ => exact (rhs_first_1 _ _).trans hk)
  rw [el, er]

theorem lhs_second_0 (i : S6400x50.Idx) (q : dot_S6400x500_S50x500_S6400x50_1_1_0_0_n_n.contr.Idx) :
    (dot_S6400x500_S50x500_S6400x50_1_1_0_0_n_n.lhsIdx i q 0).val = (i 0).val := by
  unfold DotDims.lhsIdx
  rw [dif_neg (show ¬(0 : Fin S6400x500.rank) ∈ dot_S6400x500_S50x500_S6400x50_1_1_0_0_n_n.lhsBatch by decide), dif_pos (show (0 : Fin S6400x500.rank) ∈ dot_S6400x500_S50x500_S6400x50_1_1_0_0_n_n.lhsNonContracting by decide)]
  rfl
theorem lhs_second_1 (i : S6400x50.Idx) (q : dot_S6400x500_S50x500_S6400x50_1_1_0_0_n_n.contr.Idx) :
    (dot_S6400x500_S50x500_S6400x50_1_1_0_0_n_n.lhsIdx i q 1).val = (q ⟨0, by decide⟩).val :=
  dot_S6400x500_S50x500_S6400x50_1_1_0_0_n_n.lhsIdx_val_of_single rfl i q
theorem rhs_second_0 (i : S6400x50.Idx) (q : dot_S6400x500_S50x500_S6400x50_1_1_0_0_n_n.contr.Idx) :
    (dot_S6400x500_S50x500_S6400x50_1_1_0_0_n_n.rhsIdx i q 0).val = (i 1).val := by
  unfold DotDims.rhsIdx
  rw [dif_neg (show ¬(0 : Fin S50x500.rank) ∈ dot_S6400x500_S50x500_S6400x50_1_1_0_0_n_n.rhsBatch by decide), dif_pos (show (0 : Fin S50x500.rank) ∈ dot_S6400x500_S50x500_S6400x50_1_1_0_0_n_n.rhsNonContracting by decide)]
  rfl
theorem rhs_second_1 (i : S6400x50.Idx) (q : dot_S6400x500_S50x500_S6400x50_1_1_0_0_n_n.contr.Idx) :
    (dot_S6400x500_S50x500_S6400x50_1_1_0_0_n_n.rhsIdx i q 1).val = (q ⟨0, by decide⟩).val :=
  dot_S6400x500_S50x500_S6400x50_1_1_0_0_n_n.rhsIdx_val_of_single rfl i q

/-- Entry (p, j) of the product of `a` with the transpose of `b`, accumulated from zero, is the inner product of row `p` of `a`
    with row `j` of `b`: both operands are contracted along their second axis. -/
theorem mm_second_apply (a : FVec Ideal S6400x500 .bf16) (b : FVec Ideal S50x500 .bf16) (p : Fin 6400) (j : Fin 50) :
    matmul dot_S6400x500_S50x500_S6400x50_1_1_0_0_n_n none a b (constant (F := Ideal) S6400x50 .f32 0x00000000#32) (ix2 p j)
      = ∑ k : Fin 500, a (ix2 p k) * b (ix2 j k) := by
  simp only [matmul]
  rw [Ideal.matmul_constant_zero_apply, ← Equiv.sum_comp (contrEquiv1 dot_S6400x500_S50x500_S6400x50_1_1_0_0_n_n 500 rfl rfl).symm]
  refine Finset.sum_congr rfl fun k _ => ?_
  have hk := contrEquiv1_symm_val dot_S6400x500_S50x500_S6400x50_1_1_0_0_n_n 500 rfl rfl k
  have el : dot_S6400x500_S50x500_S6400x50_1_1_0_0_n_n.lhsIdx (ix2 p j) ((contrEquiv1 dot_S6400x500_S50x500_S6400x50_1_1_0_0_n_n 500 rfl rfl).symm k) = ix2 p k := funext fun a => Fin.ext (by
    match a with
    | ⟨0, _⟩ => exact lhs_second_0 _ _
    | ⟨1, _⟩ => exact (lhs_second_1 _ _).trans hk)
  have er : dot_S6400x500_S50x500_S6400x50_1_1_0_0_n_n.rhsIdx (ix2 p j) ((contrEquiv1 dot_S6400x500_S50x500_S6400x50_1_1_0_0_n_n 500 rfl rfl).symm k) = ix2 j k := funext fun a => Fin.ext (by
    match a with
    | ⟨0, _⟩ => exact rhs_second_0 _ _
    | ⟨1, _⟩ => exact (rhs_second_1 _ _).trans hk)
  rw [el, er]

/-! ## The rectified layers of a block -/

/-- The sixteen-bit zero pattern is the number zero. -/
theorem bf16_zero : Ideal.ofBits .bf16 0x0000#16 = 0 := by simp [Ideal.ofBits, Ideal.ieee]

/-- A product into zero, rectified against the splat of zero: the first layer on a block. -/
theorem relu_first (a : FVec Ideal S6400x256 .bf16) (b : FVec Ideal S500x256 .bf16) (p : Fin 6400) (j : Fin 500) :
    maximumf (truncf .bf16 (matmul dot_S6400x256_S500x256_S6400x500_1_1_0_0_n_n none a b (constant (F := Ideal) S6400x500 .f32 0x00000000#32)) bitsLt_bf16_f32)
        (broadcast S6400x500 (Scalar.ofBits (F := Ideal) .bf16 0x0000#16)) (ix2 p j)
      = max (∑ k : Fin 256, a (ix2 p k) * b (ix2 j k)) 0 := by
  rw [maximumf_apply, truncf_apply, mm_first_apply, broadcast_apply]
  exact congrArg (max _) bf16_zero

/-- The second layer on a block. -/
theorem relu_second (a : FVec Ideal S6400x500 .bf16) (b : FVec Ideal S50x500 .bf16) (p : Fin 6400) (c : Fin 50) :
    maximumf (truncf .bf16 (matmul dot_S6400x500_S50x500_S6400x50_1_1_0_0_n_n none a b (constant (F := Ideal) S6400x50 .f32 0x00000000#32)) bitsLt_bf16_f32)
        (broadcast S6400x50 (Scalar.ofBits (F := Ideal) .bf16 0x0000#16)) (ix2 p c)
      = max (∑ j : Fin 500, a (ix2 p j) * b (ix2 c j)) 0 := by
  rw [maximumf_apply, truncf_apply, mm_second_apply, broadcast_apply]
  exact congrArg (max _) bf16_zero

/-! ## The layout steps of the last layer -/

/-- The 6400 rows viewed as 50 groups of 128: row 128·s + l becomes (s, l). -/
theorem rows_cast (v : FVec Ideal S6400x50 .bf16) (h : S6400x50.ShapeCasts S1x50x128x50) (u : Fin 1) (s : Fin 50) (l : Fin 128) (c : Fin 50) :
    shapeCast S1x50x128x50 v h (ix4 u s l c) = v (ix2 ⟨128 * s.val + l.val, by omega⟩ c) :=
  shapeCast_apply v h (ix4 u s l c) (ix2 ⟨128 * s.val + l.val, by omega⟩ c) (by
    rw [Shape.rowMajor_val_two, Shape.rowMajor_val_four]
    show (128 * s.val + l.val) * 50 + c.val = ((u.val * 50 + s.val) * 128 + l.val) * 50 + c.val
    have := u.isLt; omega)

/-- The same under the widening back to thirty-two bits, which changes nothing on the extended reals. -/
theorem rows_cast_ext (v : FVec Ideal S6400x50 .bf16) (h : S6400x50.ShapeCasts S1x50x128x50) (hb : FTy.bits .bf16 < FTy.bits .f32)
    (u : Fin 1) (s : Fin 50) (l : Fin 128) (c : Fin 50) :
    (extf .f32 (shapeCast S1x50x128x50 v h) hb (ix4 u s l c) : EReal) = v (ix2 ⟨128 * s.val + l.val, by omega⟩ c) :=
  rows_cast v h u s l c

/-- A weight block narrowed to sixteen bits after a reshape to its own shape is the block. -/
theorem weight_cast {S : Shape} (x : FVec Ideal S .f32) (h : S.ShapeCasts S) (hb : FTy.bits .bf16 < FTy.bits .f32) (i : S.Idx) :
    (truncf .bf16 (shapeCast S x h) hb i : EReal) = x i :=
  congrFun (shapeCast_self x h) i

/-- The third weight vector, held as one row of 50, copied to every row of every group. -/
theorem lanes_bcast (x3 : FVec Ideal S1x50 .f32) (h1 : S1x50.ShapeCasts S1x50) (h2 : S1x50.ShapeCasts S1x1x1x50)
    (h3 : S1x1x1x50.Broadcasts S1x50x128x50) (u : Fin 1) (s : Fin 50) (l : Fin 128) (c : Fin 50) :
    broadcastTo S1x50x128x50 (shapeCast S1x1x1x50 (shapeCast S1x50 x3 h1) h2) h3 (ix4 u s l c) = x3 (ix2 (0 : Fin 1) c) := by
  refine (broadcastTo_apply _ h3 (ix4 u s l c) (ix4 (0 : Fin 1) (0 : Fin 1) (0 : Fin 1) c) ?_).trans ?_
  · intro a
    match a with
    | ⟨0, _⟩ => rfl
    | ⟨1, _⟩ => rfl
    | ⟨2, _⟩ => rfl
    | ⟨3, _⟩ => rfl
  · rw [shapeCast_self]
    exact shapeCast_apply x3 h2 _ (ix2 (0 : Fin 1) c) (by
      rw [Shape.rowMajor_val_two, Shape.rowMajor_val_four]; rfl)

/-- The lane a reduced index (u, s, l) reads at position `c` of the summed axis is (u, s, l, c). -/
theorem lane_index (h : S1x50x128x50.Reduces [3] S1x50x128) (u : Fin 1) (s : Fin 50) (l : Fin 128) (c : Fin 50) :
    h.lift (ix3 u s l) c = ix4 u s l c := funext fun a => Fin.ext (by
  match a with
  | ⟨0, _⟩ => rfl
  | ⟨1, _⟩ => rfl
  | ⟨2, _⟩ => rfl
  | ⟨3, _⟩ => rfl)

/-! ## The stored block at an index -/

/-- Entry (s, l) of the block the body stores, from the four blocks it loads: the three layers on block row 128·s + l,
    the weight blocks read transposed. -/
theorem pay_apply (x0 : Vec Ideal S6400x256 .f32) (x1 : Vec Ideal S500x256 .f32) (x2 : Vec Ideal S50x500 .f32) (x3 : Vec Ideal S1x50 .f32)
    (u : Fin 1) (s : Fin 50) (l : Fin 128) :
    k0_pay1 (F := Ideal) x0 x1 x2 x3 (ix3 u s l)
      = ∑ c : Fin 50, max (∑ j : Fin 500, max (∑ k : Fin 256, x0 (ix2 ⟨128 * s.val + l.val, by omega⟩ k) * x1 (ix2 j k)) 0 * x2 (ix2 c j)) 0
          * x3 (ix2 (0 : Fin 1) c) := by
  unfold k0_pay1
  refine (Ideal.multiReduction_add_single _ _ reduces_S1x50x128x50_S1x50x128 _ _ (ix3 u s l)).trans ?_
  show (∑ c : Fin 50, _) = _
  refine Finset.sum_congr rfl fun c _ => ?_
  rw [lane_index]
  refine (mulf_apply _ _ _).trans ?_
  refine congrArg₂ (fun a b : EReal => a * b) ?_ (lanes_bcast x3 _ _ _ u s l c)
  refine (rows_cast_ext _ _ _ u s l c).trans ?_
  refine (relu_second _ _ _ c).trans ?_
  refine congrArg (fun z : EReal => max z 0) (Finset.sum_congr rfl fun j _ => ?_)
  refine congrArg₂ (fun a b : EReal => a * b) ?_ ?_
  · refine (relu_first _ _ _ j).trans ?_
    refine congrArg (fun z : EReal => max z 0) (Finset.sum_congr rfl fun k _ => ?_)
    refine congrArg₂ (fun a b : EReal => a * b) rfl ?_
    exact weight_cast x1 _ _ _
  · exact weight_cast x2 _ _ _

end Cert.KernelIdeal.BlockValue

end
-- ==== Proof.ArrayValue.lean ====
/-
  From one grid point's block to the whole result. Grid point t loads rows 6400·t … 6400·t + 6399 of E and the
  three weight matrices whole (transposed by the host before the launch), and writes tile t of a 25 × 50 × 128
  array; entry (t, s, l) of that array is therefore the perceptron's output on row 6400·t + 128·s + l. The 25
  tiles fill the array, and the host's final reshape to a column reads entry (t, s, l) at row
  (t·50 + s)·128 + l, which is the same row. So the program's result is the perceptron's output column.
-/
import proofs.«174020_g30520037605946_cont_9to1_2283_11_alg».proof.Proof.Gen.KernelIdeal.Frame
import proofs.«174020_g30520037605946_cont_9to1_2283_11_alg».proof.Proof.BlockValue
import proofs.«174020_g30520037605946_cont_9to1_2283_11_alg».proof.Proof.Mlp
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, and the blocks a grid point loads -/

/-- The four argument arrays as launched. -/
abbrev argE (c : Dev nD) : Cert.Mlp.SE.Idx → EReal := m ((c : Thread nD τ).loc main_arg0)
abbrev argW1 (c : Dev nD) : Cert.Mlp.SW1.Idx → EReal := m ((c : Thread nD τ).loc main_arg1)
abbrev argW2 (c : Dev nD) : Cert.Mlp.SW2.Idx → EReal := m ((c : Thread nD τ).loc main_arg2)
abbrev argW3 (c : Dev nD) : Cert.Mlp.SW3.Idx → EReal := m ((c : Thread nD τ).loc main_arg3)

/-- The four blocks grid point `t` loads, at their literal shapes. -/
abbrev blkE (c : Dev nD) (t : Fin cfg0.N) : Vec Ideal S6400x256 .f32 := iblk m c 0 t
abbrev blkW1 (c : Dev nD) (t : Fin cfg0.N) : Vec Ideal S500x256 .f32 := iblk m c 1 t
abbrev blkW2 (c : Dev nD) (t : Fin cfg0.N) : Vec Ideal S50x500 .f32 := iblk m c 2 t
abbrev blkW3 (c : Dev nD) (t : Fin cfg0.N) : Vec Ideal S1x50 .f32 := iblk m c 3 t

/-- The host transposes each weight matrix before the launch. -/
theorem V_w1t (c : Dev nD) : (V m c main_v0 : S500x256.Idx → EReal)
    = transpose S500x256 [1, 0] (m ((c : Thread nD τ).loc main_arg1)) transposes_S256x500_S500x256_1_0 := by
  show StableHlo.after hostOps0 (fun b => m (c, b)) (Proc.devRef .tc main_v0) = _
  after_results
theorem V_w2t (c : Dev nD) : (V m c main_v1 : S50x500.Idx → EReal)
    = transpose S50x500 [1, 0] (m ((c : Thread nD τ).loc main_arg2)) transposes_S500x50_S50x500_1_0 := by
  show StableHlo.after hostOps0 (fun b => m (c, b)) (Proc.devRef .tc main_v1) = _
  after_results
theorem V_w3t (c : Dev nD) : (V m c main_v2 : S1x50.Idx → EReal)
    = transpose S1x50 [1, 0] (m ((c : Thread nD τ).loc main_arg3)) transposes_S50x1_S1x50_1_0 := by
  show StableHlo.after hostOps0 (fun b => m (c, b)) (Proc.devRef .tc main_v2) = _
  after_results

/-- The index maps over the grid: E's block and the result's tile move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 25 := by
  have h := t.isLt
  have hN : grid0.N = 25 := N_0
  exact hN ▸ h

/-- Row `p` of the block of E at point `t` is row 6400·t + p of E. -/
theorem blkE_apply (c : Dev nD) (t : Fin cfg0.N) (p : Fin 6400) (k : Fin 256) :
    blkE m c t (ix2 p k) = argE m c (ix2 ⟨6400 * t.val + p.val, by have := point_lt t; omega⟩ k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 6400 + 1 * p.val = 6400 * t.val + p.val; omega
  | ⟨1, _⟩ => show win0_0.index t (1 : Fin 2) * 256 + 1 * k.val = k.val; omega

/-- The first weight block is the whole transposed matrix. -/
theorem blkW1_apply (c : Dev nD) (t : Fin cfg0.N) (j : Fin 500) (k : Fin 256) :
    blkW1 m c t (ix2 j k) = argW1 m c (ix2 k j) := by
  show V m c main_v0 (((cfg0.win 1).blk t).view.emb (ix2 j k)) = _
  obtain ⟨-, -, e2, e3, -⟩ := idx_facts t
  have e : ((cfg0.win 1).blk t).view.emb (ix2 j k) = ix2 j k := funext fun a => Fin.ext (by
    match a with
    | ⟨0, _⟩ => show win0_1.index t (0 : Fin 2) * 500 + 1 * j.val = j.val; omega
    | ⟨1, _⟩ => show win0_1.index t (1 : Fin 2) * 256 + 1 * k.val = k.val; omega)
  rw [e, V_w1t]
  exact transpose_ix2_apply _ _ j k

/-- The second weight block likewise. -/
theorem blkW2_apply (c : Dev nD) (t : Fin cfg0.N) (q : Fin 50) (j : Fin 500) :
    blkW2 m c t (ix2 q j) = argW2 m c (ix2 j q) := by
  show V m c main_v1 (((cfg0.win 2).blk t).view.emb (ix2 q j)) = _
  obtain ⟨-, -, -, -, e4, e5, -⟩ := idx_facts t
  have e : ((cfg0.win 2).blk t).view.emb (ix2 q j) = ix2 q j := funext fun a => Fin.ext (by
    match a with
    | ⟨0, _⟩ => show win0_2.index t (0 : Fin 2) * 50 + 1 * q.val = q.val; omega
    | ⟨1, _⟩ => show win0_2.index t (1 : Fin 2) * 500 + 1 * j.val = j.val; omega)
  rw [e, V_w2t]
  exact transpose_ix2_apply _ _ q j

/-- The third weight block is the one column of the third matrix laid as a row. -/
theorem blkW3_apply (c : Dev nD) (t : Fin cfg0.N) (q : Fin 50) :
    blkW3 m c t (ix2 (0 : Fin 1) q) = argW3 m c (ix2 q (0 : Fin 1)) := by
  show V m c main_v2 (((cfg0.win 3).blk t).view.emb (ix2 (0 : Fin 1) q)) = _
  obtain ⟨-, -, -, -, -, -, e6, e7, -⟩ := idx_facts t
  have e : ((cfg0.win 3).blk t).view.emb (ix2 (0 : Fin 1) q) = ix2 (0 : Fin 1) q := funext fun a => Fin.ext (by
    match a with
    | ⟨0, _⟩ => show win0_3.index t (0 : Fin 2) * 1 + 1 * (0 : Fin 1).val = (0 : Fin 1).val; omega
    | ⟨1, _⟩ => show win0_3.index t (1 : Fin 2) * 50 + 1 * q.val = q.val; omega)
  rw [e, V_w3t]
  exact transpose_ix2_apply _ _ (0 : Fin 1) q

/-! ## The tiled result -/

/-- The row of E that entry (t, s, l) of the tiled result belongs to. -/
def rowOf (i : S25x50x128.Idx) : Fin 160000 :=
  ⟨6400 * (i 0).val + 128 * (i 1).val + (i 2).val, by
    have h0 : (i 0).val < 25 := (i 0).isLt
    have h1 : (i 1).val < 50 := (i 1).isLt
    have h2 : (i 2).val < 128 := (i 2).isLt
    omega⟩

/-- The tiled result: at (t, s, l) the perceptron's output on that row. -/
def tiles (c : Dev nD) : S25x50x128.Idx → EReal := fun i =>
  Cert.Mlp.outRow (argE m c) (argW1 m c) (argW2 m c) (argW3 m c) (rowOf i)

theorem hz2 : (![0, 0] : Fin 2 → Nat) = fun _ => 0 := funext fun a => by fin_cases a <;> rfl
theorem hz3 : (![0, 0, 0] : Fin 3 → Nat) = fun _ => 0 := funext fun a => by fin_cases a <;> rfl

/-- What grid point `t` writes back is tile `t` of the tiled result. -/
theorem flushed_eq (c : Dev nD) (t : Fin cfg0.N) :
    (dats m 0 c).flushed 4 t = ((cfg0.win 4).blk t).view.read (Elt Ideal) (tiles m c) := by
  show (cfg0.win 4).cut (grid0.coords t) ((dats m 0 c).after 4 t) = _
  rw [after0_4]
  unfold out0_4
  rw [View.canon_unit_zero hz3]
  simp only [View.ld_unit_zero (S := S6400x256) hz2, View.ld_unit_zero (S := S500x256) hz2,
    View.ld_unit_zero (S := S50x500) hz2, View.ld_unit_zero (S := S1x50) hz2]
  refine funext fun (j : S1x50x128.Idx) => ?_
  obtain ⟨u, s, l, rfl⟩ : ∃ (u : Fin 1) (s : Fin 50) (l : Fin 128), j = ix3 u s l := ⟨j 0, j 1, j 2, eq_ix3 j⟩
  show k0_pay1 (F := Ideal) (blkE m c t) (blkW1 m c t) (blkW2 m c t) (blkW3 m c t) (ix3 u s l)
    = tiles m c (((cfg0.win 4).blk t).view.emb (ix3 u s l))
  refine (BlockValue.pay_apply (blkE m c t) (blkW1 m c t) (blkW2 m c t) (blkW3 m c t) u s l).trans ?_
  have hrow : rowOf (((cfg0.win 4).blk t).view.emb (ix3 u s l))
      = ⟨6400 * t.val + (128 * s.val + l.val), by have := point_lt t; omega⟩ := Fin.ext (by
    obtain ⟨-, -, -, -, -, -, -, -, e8, e9, e10⟩ := idx_facts t
    show 6400 * (win0_4.index t (0 : Fin 3) * 1 + 1 * u.val) + 128 * (win0_4.index t (1 : Fin 3) * 50 + 1 * s.val)
      + (win0_4.index t (2 : Fin 3) * 128 + 1 * l.val) = 6400 * t.val + (128 * s.val + l.val)
    have := u.isLt
    omega)
  unfold tiles
  rw [hrow]
  unfold Cert.Mlp.outRow Cert.Mlp.hidden2 Cert.Mlp.hidden1
  simp only [blkE_apply, blkW1_apply, blkW2_apply, blkW3_apply]

/-- An index of the tiled array lies in point `t`'s tile iff each coordinate lies in the tile's range. -/
theorem mem_tile (t : Fin cfg0.N) (i : S25x50x128.Idx) :
    i ∈ ((cfg0.win 4).blk t).view.set ↔ ∀ a : Fin 3, win0_4.index t a * S1x50x128.size a ≤ (i a).val
      ∧ (i a).val < win0_4.index t a * S1x50x128.size a + S1x50x128.size a := by
  show i ∈ ((View.whole main_v3).slice (win0_4.rect t)).set ↔ _
  rw [View.set_slice_whole, Rect.mem_set_unit]
  exact Iff.rfl

/-- Every entry (t, s, l) lies in the tile of point `t`, which is written back. -/
theorem tiles_cover (i : S25x50x128.Idx) :
    ∃ t : Fin cfg0.N, (cfg0.win 4).flush t = true ∧ i ∈ ((cfg0.win 4).blk t).view.set := by
  have h0 : (i 0).val < 25 := (i 0).isLt
  have h1 : (i 1).val < 50 := (i 1).isLt
  have h2 : (i 2).val < 128 := (i 2).isLt
  obtain ⟨t, ht⟩ : ∃ t : Fin cfg0.N, t.val = (i 0).val :=
    ⟨⟨(i 0).val, by rw [show cfg0.N = 25 from N_0]; exact h0⟩, rfl⟩
  refine ⟨t, flush0_4 t, ?_⟩
  rw [mem_tile]
  obtain ⟨-, -, -, -, -, -, -, -, e8, e9, e10⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 50 ≤ (i 1).val ∧ (i 1).val < win0_4.index t (1 : Fin 3) * 50 + 50; omega
  | ⟨2, _⟩ => show win0_4.index t (2 : Fin 3) * 128 ≤ (i 2).val ∧ (i 2).val < win0_4.index t (2 : Fin 3) * 128 + 128; omega

/-- After the region the tiled array holds the tiled result. -/
theorem tiled_final (c : Dev nD) : (dats m 0 c).arrAt 4 cfg0.N = tiles m c :=
  (dats m 0 c).arrAt_eq_of_cover 4 (tiles m c) (fun t _ => flushed_eq m c t) tiles_cover

/-! ## The reshape to a column -/

/-- The host's reshape of the tiled result is the perceptron's output column: entry (t, s, l) sits at row
    (t·50 + s)·128 + l = 6400·t + 128·s + l. -/
theorem column_eq (c : Dev nD) (h : S25x50x128.ShapeCasts S160000x1) :
    shapeCast S160000x1 (tiles m c) h = Cert.Mlp.out (argE m c) (argW1 m c) (argW2 m c) (argW3 m c) := by
  funext i
  obtain ⟨r, u, rfl⟩ : ∃ (r : Fin 160000) (u : Fin 1), i = ix2 r u := ⟨i 0, i 1, eq_ix2 i⟩
  rw [Cert.Mlp.out_ix2]
  have hr := r.isLt
  refine (shapeCast_apply (tiles m c) h (ix2 r u)
    (ix3 (⟨r.val / 6400, by omega⟩ : Fin 25) (⟨r.val % 6400 / 128, by omega⟩ : Fin 50) (⟨r.val % 128, by omega⟩ : Fin 128)) ?_).trans ?_
  · rw [Shape.rowMajor_val_three, Shape.rowMajor_val_two]
    show (r.val / 6400 * 50 + r.val % 6400 / 128) * 128 + r.val % 128 = r.val * 1 + u.val
    have := u.isLt
    omega
  · unfold tiles
    refine congrArg (Cert.Mlp.outRow (argE m c) (argW1 m c) (argW2 m c) (argW3 m c)) (Fin.ext ?_)
    show 6400 * (r.val / 6400) + 128 * (r.val % 6400 / 128) + r.val % 128 = r.val
    omega

/-- What the program's result buffer holds after the lines that follow the region. -/
theorem tail_eq (c : Dev nD) :
    Pipeline.afterTail₀ cfgs (dats m) 0 (V0 m) [hostOps1] c main_v4
      = Cert.Mlp.out (argE m c) (argW1 m c) (argW2 m c) (argW3 m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = tiles m c :=
    (Pipeline.withArrays_arr spec0 launch0.win.arr_inj c (V0 m c) (fun w => (dats m 0 c).arrAt w (cfgs 0).N) 4).trans
      (tiled_final m c)
  refine Eq.trans (funext fun i => ?_) (column_eq m c shapeCasts_S25x50x128_S160000x1)
  show shapeCast S160000x1 (Pipeline.withArrays (cfgs 0).spec c (V0 m c) (fun w => (dats m 0 c).arrAt w (cfgs 0).N)
    (Proc.devRef .tc main_v3)) shapeCasts_S25x50x128_S160000x1 i = _
  rw [hw]

/-! ## The run, read -/

/-- Every weakly fair execution of the program ends with the result buffer at the perceptron's output column of
    the arguments as launched, and the four arguments unchanged. -/
theorem run : θ_run defs (onTc (τ := τ) (main (F := Ideal))) ⟨m, fun _ => 0, ρ⟩ (fun r => ∀ c : Dev nD,
      r.2.mem ((c.tc : Thread nD τ).loc main_v4) = Cert.Mlp.out (argE m c) (argW1 m c) (argW2 m c) (argW3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.lean ====
/- A fused three-layer perceptron against its plain reference, over the extended reals.
   The kernel walks E in 25 blocks of 6400 rows; on each block it forms relu(relu(E_blk · w1) · w2), views the
   6400 × 50 result as 50 groups of 128 rows, multiplies every row by the single column of w3 and sums the lanes,
   writing a 50 × 128 tile; the host reshapes the 25 tiles to a column. The reference forms the same three
   products on whole arrays. Read at an index, both give
       out r = Σ_c max (Σ_j max (Σ_k E[r,k] · w1[k,j]) 0 · w2[j,c]) 0 · w3[c,0]
   (Proof/Mlp.lean): the reference directly (Proof/RefIsMlp.lean), the kernel through one point's block
   (Proof/BlockValue.lean) and the tiling of the result (Proof/ArrayValue.lean). The roundings through sixteen
   bits are the identity on the extended reals, and the sums are compared term by term, so the finiteness of the
   inputs is not used. -/
import proofs.«174020_g30520037605946_cont_9to1_2283_11_alg».proof.Defs
import proofs.«174020_g30520037605946_cont_9to1_2283_11_alg».proof.Proof.Gen.Kernel
import proofs.«174020_g30520037605946_cont_9to1_2283_11_alg».proof.Proof.Gen.Kernel.Skeleton
import proofs.«174020_g30520037605946_cont_9to1_2283_11_alg».proof.Proof.Gen.Kernel.Launch
import proofs.«174020_g30520037605946_cont_9to1_2283_11_alg».proof.Proof.Gen.Kernel.Points
import proofs.«174020_g30520037605946_cont_9to1_2283_11_alg».proof.Proof.Gen.Kernel.Frame
import proofs.«174020_g30520037605946_cont_9to1_2283_11_alg».proof.Proof.Gen.KernelIdeal
import proofs.«174020_g30520037605946_cont_9to1_2283_11_alg».proof.Proof.Gen.KernelIdeal.Skeleton
import proofs.«174020_g30520037605946_cont_9to1_2283_11_alg».proof.Proof.Gen.KernelIdeal.Launch
import proofs.«174020_g30520037605946_cont_9to1_2283_11_alg».proof.Proof.Gen.KernelIdeal.Points
import proofs.«174020_g30520037605946_cont_9to1_2283_11_alg».proof.Proof.Gen.KernelIdeal.Frame
import proofs.«174020_g30520037605946_cont_9to1_2283_11_alg».proof.Proof.Gen.ReferenceIdeal
import proofs.«174020_g30520037605946_cont_9to1_2283_11_alg».proof.Proof.Gen.ReferenceIdeal.Run
import proofs.«174020_g30520037605946_cont_9to1_2283_11_alg».proof.Proof.Gen.ReferenceIdeal.Read
import proofs.«174020_g30520037605946_cont_9to1_2283_11_alg».proof.Proof.Gen.Pre_finite_inputs
import proofs.«174020_g30520037605946_cont_9to1_2283_11_alg».proof.Proof.RefIsMlp
import proofs.«174020_g30520037605946_cont_9to1_2283_11_alg».proof.Proof.ArrayValue
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the third weight row narrowed to sixteen bits and widened back is itself. -/
theorem preserves : Cert.preserves_Kernel_KernelIdeal :=
  IdealRules.truncf_extf.statement _ .f32 .bf16

/-- Both programs end with the perceptron's output column of the arguments, which agree. -/
theorem algebraic : Cert.algebraic_KernelIdeal_ReferenceIdeal := by
  intro m ρ m' ρ' _ hagree
  refine ⟨fun c => Cert.Mlp.out (Cert.KernelIdeal.ArrayValue.argE m c) (Cert.KernelIdeal.ArrayValue.argW1 m c)
    (Cert.KernelIdeal.ArrayValue.argW2 m c) (Cert.KernelIdeal.ArrayValue.argW3 m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference, preserves, algebraic⟩

end Cert.Proof

end
